-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000x1, .f32⟩
  | .hbm, ⟨53, _⟩ => ⟨S_, .f32⟩
  | .hbm, ⟨54, _⟩ => ⟨S100000x1, .f32⟩
  | .hbm, ⟨55, _⟩ => ⟨S1600000x1, .i32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostAgg.lean ====
/-
  The mean aggregation over incoming edges, as ONE function of the node features and the edge list, and where the
  kernel program's host stretches leave it.

  `meanAgg h e` gathers the rows of `h` at the edges' source ids (a negative id first moved up by the number of
  nodes), sums them into the rows named by the destination ids, and divides each row by its in-degree, a degree below one
  counted as one.  Both layers apply it: the first to the input features, the second to the first layer's output.  It is
  carried as a whole and never opened: the reference spells the same operations, so only its ARGUMENT matters.

  The program's buffers at the two region entries, read back through the host operations: before the first
  pallas_call the aggregated features are `meanAgg` of the launch features, the bias is the bias argument cast to one
  row, and the weights are as launched; before the second the same with the first call's result array in the features' place.
-/
import proofs.«159692_j78752520339773_1_alg».proof.Proof.Gen.KernelIdeal.Frame
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The edges' source ids: row 0 of the edge list, as a vector. -/
def srcIds (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destination ids: row 1 of the edge list, as a vector. -/
def dstIds (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean of the source rows of `h` over each node's incoming edges, from the two id vectors (an empty neighbourhood
    divides by one). -/
def meanAggIds (h : (⟨S100000x128, .f32⟩ : BufTy).Contents (Elt F)) (src dst : (⟨S1600000, .i32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (maximumf (Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 dst) (broadcastInDim S1600000x1 ![] bcast_S_S1600000x1 (constant S_ .f32 0x3F800000#32))) (broadcastInDim S100000x1 ![] bcast_S_S100000x1 (constant S_ .f32 0x3F800000#32))))

/-- The same from the edge list. -/
def meanAgg (h : (⟨S100000x128, .f32⟩ : BufTy).Contents (Elt F)) (e : (⟨S2x1600000, .i32⟩ : BufTy).Contents (Elt F)) : (⟨S100000x128, .f32⟩ : BufTy).Contents (Elt F) :=
  meanAggIds h (srcIds e) (dstIds e)

variable (m : (ℓ : Loc nD τ sig) → Buf (Elt F) ℓ) (ρ : Dev nD → PrngReg)

/-! ## Before the first pallas_call -/

theorem W1_src (c : Dev nD) : W1 m ρ c (Proc.devRef .tc main_v1) = srcIds (m ((c : Thread nD τ).loc main_arg7)) := by
  show StableHlo.after hostOps0 (W0 m ρ c) (Proc.devRef .tc main_v1) = _
  after_results
  rfl

theorem W1_dst (c : Dev nD) : W1 m ρ c (Proc.devRef .tc main_v3) = dstIds (m ((c : Thread nD τ).loc main_arg7)) := by
  show StableHlo.after hostOps0 (W0 m ρ c) (Proc.devRef .tc main_v3) = _
  after_results
  rfl

set_option maxHeartbeats 4000000 in
theorem V1_agg (c : Dev nD) : V1 m ρ c main_v21 = meanAgg (m ((c : Thread nD τ).loc main_arg0)) (m ((c : Thread nD τ).loc main_arg7)) := by
  show StableHlo.after hostOps0 (W0 m ρ c) (Proc.devRef .tc main_v21) = _
  after_results_simp
  unfold meanAgg meanAggIds srcIds dstIds
  rfl

theorem V1_bias (c : Dev nD) : V1 m ρ c main_v22 = shapeCast S1x128 (m ((c : Thread nD τ).loc main_arg2)) shapeCasts_S128_S1x128 := by
  show StableHlo.after hostOps0 (W0 m ρ c) (Proc.devRef .tc main_v22) = _
  after_results
  rfl

theorem V1_arg0 (c : Dev nD) : V1 m ρ c main_arg0 = (m ((c : Thread nD τ).loc main_arg0)) := by
  show StableHlo.after hostOps0 (W0 m ρ c) (Proc.devRef .tc main_arg0) = _
  after_results

theorem V1_arg1 (c : Dev nD) : V1 m ρ c main_arg1 = (m ((c : Thread nD τ).loc main_arg1)) := by
  show StableHlo.after hostOps0 (W0 m ρ c) (Proc.devRef .tc main_arg1) = _
  after_results

theorem V1_arg3 (c : Dev nD) : V1 m ρ c main_arg3 = (m ((c : Thread nD τ).loc main_arg3)) := by
  show StableHlo.after hostOps0 (W0 m ρ c) (Proc.devRef .tc main_arg3) = _
  after_results

/-! ## Between the calls: what the first region does not write keeps its contents -/

theorem W2_src (c : Dev nD) : W2 m ρ c (Proc.devRef .tc main_v1) = srcIds (m ((c : Thread nD τ).loc main_arg7)) :=
  (W2_of_ne m ρ c main_v1 (by decide)).trans (W1_src m ρ c)

theorem W2_dst (c : Dev nD) : W2 m ρ c (Proc.devRef .tc main_v3) = dstIds (m ((c : Thread nD τ).loc main_arg7)) :=
  (W2_of_ne m ρ c main_v3 (by decide)).trans (W1_dst m ρ c)

theorem W2_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results)

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results)

/-- The first call's result array, as the first region leaves it. -/
theorem V2_feat (c : Dev nD) : V2 m ρ c main_v23 = (dat0 (V1 m ρ) c).arrAt 5 cfg0.N :=
  W2_arr m ρ c 5

/-! ## Before the second pallas_call -/

theorem V3_feat (c : Dev nD) : V3 m ρ c main_v23 = V2 m ρ c main_v23 := by
  show StableHlo.after hostOps1 (W2 m ρ c) (Proc.devRef .tc main_v23) = _
  after_results

set_option maxHeartbeats 4000000 in
theorem V3_agg_ids (c : Dev nD) : V3 m ρ c main_v41
    = meanAggIds (W2 m ρ c (Proc.devRef .tc main_v23)) (W2 m ρ c (Proc.devRef .tc main_v1)) (W2 m ρ c (Proc.devRef .tc main_v3)) := by
  show StableHlo.after hostOps1 (W2 m ρ c) (Proc.devRef .tc main_v41) = _
  after_results_simp
  unfold meanAggIds
  rfl

theorem V3_agg (c : Dev nD) : V3 m ρ c main_v41 = meanAgg (V2 m ρ c main_v23) (m ((c : Thread nD τ).loc main_arg7)) := by
  rw [V3_agg_ids, W2_src, W2_dst]
  rfl

theorem V3_bias (c : Dev nD) : V3 m ρ c main_v42 = shapeCast S1x128 (m ((c : Thread nD τ).loc main_arg5)) shapeCasts_S128_S1x128 := by
  show StableHlo.after hostOps1 (W2 m ρ c) (Proc.devRef .tc main_v42) = _
  after_results
  rw [W2_arg5]
  rfl

theorem V3_arg4 (c : Dev nD) : V3 m ρ c main_arg4 = (m ((c : Thread nD τ).loc main_arg4)) := by
  show StableHlo.after hostOps1 (W2 m ρ c) (Proc.devRef .tc main_arg4) = _
  after_results
  exact W2_arg4 m ρ c

theorem V3_arg6 (c : Dev nD) : V3 m ρ c main_arg6 = (m ((c : Thread nD τ).loc main_arg6)) := by
  show StableHlo.after hostOps1 (W2 m ρ c) (Proc.devRef .tc main_arg6) = _
  after_results
  exact W2_arg6 m ρ c

/-- The program's result array, as the second region leaves it. -/
theorem V4_out (c : Dev nD) : W4 m ρ c (Proc.devRef .tc main_v43) = (dat1 (V3 m ρ) c).arrAt 5 cfg1.N :=
  W4_arr m ρ c 5

end Cert.KernelIdeal.Hand

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Layer.lean ====
/-
  One mean-aggregation graph layer, read one row at a time at the ideal values.

  Row `n` of the layer's output depends on row `n` of the aggregated neighbour features `a` and row `n` of the node
  features `h` only: entry `j` is the positive part of  (a_n · Wl)_j + b_j + (h_n · Wr)_j,  the two products plain sums
  over the contracted coordinate.  The kernel spells this with two matrix products of narrowed operands into zero
  accumulators, the bias as one row broadcast down the rows, and a maximum with a zero splat; the host spells it
  with two `dot_general`s, the bias broadcast in two steps, and a maximum with a broadcast zero constant.  At the
  ideal values a narrowing is the identity and both spellings are the same sums, entry by entry.
-/
import proofs.«159692_j78752520339773_1_alg».proof.Proof.LibRowOps

noncomputable section

open scoped BigOperators

namespace SageLayer

open Idealize.ShloMosaic Idealize.ShloMosaic.ValueIdx

variable {R K H : ℕ}

/-- One output row from one aggregated row `a` and one feature row `h`: the positive part of `a · Wl + b + h · Wr`. -/
def rowOut (Wl Wr : (⟨2, ![K, H]⟩ : Shape).Idx → EReal) (b : Fin H → EReal) (a h : Fin K → EReal) : Fin H → EReal :=
  fun j => max (((∑ k : Fin K, a k * Wl (ix2 k j)) + b j) + ∑ k : Fin K, h k * Wr (ix2 k j)) (Ideal.ofBits .f32 0x00000000#32)

/-- The layer on whole arrays: each output row is `rowOut` of the same row of `a` and of `h`. -/
def layer (a h : (⟨2, ![R, K]⟩ : Shape).Idx → EReal) (Wl Wr : (⟨2, ![K, H]⟩ : Shape).Idx → EReal) (b : Fin H → EReal) :
    (⟨2, ![R, H]⟩ : Shape).Idx → EReal :=
  fun i => rowOut Wl Wr b (fun k => a (ix2 (i 0) k)) (fun k => h (ix2 (i 0) k)) (i 1)

theorem layer_apply (a h : (⟨2, ![R, K]⟩ : Shape).Idx → EReal) (Wl Wr : (⟨2, ![K, H]⟩ : Shape).Idx → EReal) (b : Fin H → EReal)
    (n : Fin R) (j : Fin H) :
    layer a h Wl Wr b (ix2 n j) = rowOut Wl Wr b (fun k => a (ix2 n k)) (fun k => h (ix2 n k)) j := rfl

/-- The kernel's spelling at `(n, j)`: rows `n` of the two left operands against columns `j` of the weights, the bias
    row's entry `j`, the positive part. -/
theorem kernel_apply (d : DotDims ⟨2, ![R, K]⟩ ⟨2, ![K, H]⟩ ⟨2, ![R, H]⟩) (hd : d = DotDims.plain R K H)
    (ya yh : FVec Ideal ⟨2, ![R, K]⟩ .f32) (Wl Wr : FVec Ideal ⟨2, ![K, H]⟩ .f32) (b1 : FVec Ideal ⟨2, ![1, H]⟩ .f32)
    (hb : FTy.bf16.bits < FTy.f32.bits) (hbc : (⟨2, ![1, H]⟩ : Shape).Broadcasts ⟨2, ![R, H]⟩) (n : Fin R) (j : Fin H) :
    maximumf (addf (addf (matmul d none (truncf .bf16 ya hb) (truncf .bf16 Wl hb) (constant ⟨2, ![R, H]⟩ .f32 0x00000000#32))
          (broadcastTo ⟨2, ![R, H]⟩ b1 hbc))
        (matmul d none (truncf .bf16 yh hb) (truncf .bf16 Wr hb) (constant ⟨2, ![R, H]⟩ .f32 0x00000000#32)))
      (broadcast ⟨2, ![R, H]⟩ (Scalar.ofBits (F := Ideal) .f32 0x00000000#32)) (ix2 n j)
    = rowOut Wl Wr (fun q => b1 (ix2 (0 : Fin 1) q)) (fun k => ya (ix2 n k)) (fun k => yh (ix2 n k)) j := by
  show max ((matmul d none (truncf .bf16 ya hb) (truncf .bf16 Wl hb) (constant ⟨2, ![R, H]⟩ .f32 0x00000000#32) (ix2 n j)
        + broadcastTo ⟨2, ![R, H]⟩ b1 hbc (ix2 n j))
      + matmul d none (truncf .bf16 yh hb) (truncf .bf16 Wr hb) (constant ⟨2, ![R, H]⟩ .f32 0x00000000#32) (ix2 n j))
    (Ideal.ofBits .f32 0x00000000#32) = _
  rw [RowOps.matmul_plain_apply d hd, RowOps.matmul_plain_apply d hd, broadcastTo_1b_ab_apply]
  rfl

/-- The host's spelling at `(n, j)`: the same sums, the bias read through its two broadcasts. -/
theorem host_apply (d : DotDims ⟨2, ![R, K]⟩ ⟨2, ![K, H]⟩ ⟨2, ![R, H]⟩) (hd : d = DotDims.plain R K H)
    (ya yh : FVec Ideal ⟨2, ![R, K]⟩ .f32) (Wl Wr : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (d0 : Fin 0 → Fin 2) (hz : (⟨0, ![]⟩ : Shape).BroadcastsInDim ⟨2, ![R, H]⟩ d0) (n : Fin R) (j : Fin H) :
    maximumf (addf (addf (Host.dotGeneral d none ya Wl)
          (broadcastInDim ⟨2, ![R, H]⟩ ![0, 1] h2 (broadcastInDim ⟨2, ![1, H]⟩ ![1] h1 b)))
        (Host.dotGeneral d none yh Wr))
      (broadcastInDim ⟨2, ![R, H]⟩ d0 hz (constant (F := Ideal) ⟨0, ![]⟩ .f32 0x00000000#32)) (ix2 n j)
    = rowOut Wl Wr (fun q => b (ix1 q)) (fun k => ya (ix2 n k)) (fun k => yh (ix2 n k)) j := by
  show max ((Host.dotGeneral d none ya Wl (ix2 n j)
        + broadcastInDim ⟨2, ![R, H]⟩ ![0, 1] h2 (broadcastInDim ⟨2, ![1, H]⟩ ![1] h1 b) (ix2 n j))
      + Host.dotGeneral d none yh Wr (ix2 n j))
    (Ideal.ofBits .f32 0x00000000#32) = _
  rw [RowOps.dotGeneral_plain_apply d hd, RowOps.dotGeneral_plain_apply d hd,
    RowOps.bias_bcast_apply b _ rfl h1 _ rfl rfl h2]
  rfl

end SageLayer

end
-- ==== Proof.RegionCommon.lean ====
/-
  A block of 4000 rows inside the 100000-row arrays: the index of a block entry as an index of the whole array.
-/
import proofs.«159692_j78752520339773_1_alg».proof.Proof.Gen.KernelIdeal
import Idealize.ShloMosaic.Lib.ValueIdx

set_option maxRecDepth 16384

noncomputable section

namespace Cert.KernelIdeal.Hand

open Cert.KernelIdeal Idealize.ShloMosaic
open Idealize.ShloMosaic.ValueIdx

theorem hz : (![0, 0] : Fin 2 → Nat) = fun _ => 0 := funext fun a => by fin_cases a <;> rfl

/-- Index `z` of a block of 4000 rows that starts at row `r`, as an index of the whole array. -/
def rowAt (r : ℕ) (hr : r + 4000 ≤ 100000) (z : S4000x128.Idx) : S100000x128.Idx :=
  ix2 (⟨r + (z 0).val, by have h : (z 0).val < 4000 := (z 0).isLt; omega⟩ : Fin 100000) (⟨(z 1).val, (z 1).isLt⟩ : Fin 128)

end Cert.KernelIdeal.Hand

end
-- ==== Proof.Region0.lean ====
/-
  The fused-layer pallas_call 0, read as ONE function of the arrays it is entered with.

  The call tiles its 100000 rows in 25 blocks of 4000. At grid point `t` the body loads block `t` of the aggregated
  features and of the node features, the whole weight matrices and the one-row bias, and stores one block of output:
  entry `(p, q)` is the positive part of (agg_p · Wl)_q + b_q + (x_p · Wr)_q. Row `p` of block `t` is row
  `4000 t + p` of the arrays, so the stored block is block `t` of the row-wise layer of the whole arrays; the 25 blocks
  cover every row, so the output array ends holding that layer.
-/
import proofs.«159692_j78752520339773_1_alg».proof.Proof.Gen.KernelIdeal.Frame
import proofs.«159692_j78752520339773_1_alg».proof.Proof.Layer
import proofs.«159692_j78752520339773_1_alg».proof.Proof.RegionCommon
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## pallas_call 0: what its output array ends holding, from the arrays the region is entered with -/

section Region0

variable (V : (c : Dev nD) → (b : Ref sig .tc) → Buf (Elt Ideal) ((c : Thread nD τ).loc b))

/-- The arrays the call's windows stage, at their literal types. -/
abbrev agg0 (c : Dev nD) : S100000x128.Idx → EReal := V c main_v21
abbrev feat0 (c : Dev nD) : S100000x128.Idx → EReal := V c main_arg0
abbrev wl0 (c : Dev nD) : S128x128.Idx → EReal := V c main_arg1
abbrev bias0 (c : Dev nD) : S1x128.Idx → EReal := V c main_v22
abbrev wr0 (c : Dev nD) : S128x128.Idx → EReal := V c main_arg3

/-- The layer of those arrays: what the output array ends holding. -/
def G0 (c : Dev nD) : S100000x128.Idx → EReal :=
  SageLayer.layer (R := 100000) (K := 128) (H := 128) (agg0 V c) (feat0 V c) (wl0 V c) (wr0 V c)
    (fun j => bias0 V c (ix2 (0 : Fin 1) j))

/-- The body's stored value at `(p, q)` of a block: row `p` of the two row blocks against the weights, the bias row, the
    positive part. (The casts in the body are between equal shapes.) -/
theorem pay0_apply (x0 x1 : Vec Ideal S4000x128 .f32) (x2 x4 : Vec Ideal S128x128 .f32) (x3 : Vec Ideal S1x128 .f32)
    (p : Fin 4000) (q : Fin 128) :
    k0_pay1 x0 x1 x2 x4 x3 (ix2 p q)
      = SageLayer.rowOut (K := 128) (H := 128) x2 x4 (fun j => x3 (ix2 (0 : Fin 1) j)) (fun k => x0 (ix2 p k)) (fun k => x1 (ix2 p k)) q := by
  unfold k0_pay1
  simp only [shapeCast_self]
  exact SageLayer.kernel_apply (R := 4000) (K := 128) (H := 128) _ rfl x0 x1 x2 x4 x3 _ _ p q

/-- A block of rows starting at row `r`, whole weights and bias: the stored value at `y` is the layer at row `r + y₀`. -/
theorem block0 (A Hf : S100000x128.Idx → EReal) (Wl Wr : S128x128.Idx → EReal) (B : S1x128.Idx → EReal)
    (x0 x1 : Vec Ideal S4000x128 .f32) (x2 x4 : Vec Ideal S128x128 .f32) (x3 : Vec Ideal S1x128 .f32)
    (r : ℕ) (hr : r + 4000 ≤ 100000)
    (h0 : ∀ z : S4000x128.Idx, x0 z = A (rowAt r hr z)) (h1 : ∀ z : S4000x128.Idx, x1 z = Hf (rowAt r hr z))
    (h2 : x2 = Wl) (h4 : x4 = Wr) (h3 : x3 = B) (y : S4000x128.Idx) :
    k0_pay1 x0 x1 x2 x4 x3 y
      = SageLayer.layer (R := 100000) (K := 128) (H := 128) A Hf Wl Wr (fun j => B (ix2 (0 : Fin 1) j)) (rowAt r hr y) := by
  subst h2 h4 h3
  obtain ⟨p, q, rfl⟩ : ∃ (p : Fin 4000) (q : Fin 128), y = ix2 p q := ⟨y 0, y 1, eq_ix2 y⟩
  rw [pay0_apply]
  have e0 : (fun k : Fin 128 => x0 (ix2 p k)) = fun k : Fin 128 => A (rowAt r hr (ix2 p k)) := funext fun k => h0 (ix2 p k)
  have e1 : (fun k : Fin 128 => x1 (ix2 p k)) = fun k : Fin 128 => Hf (rowAt r hr (ix2 p k)) := funext fun k => h1 (ix2 p k)
  rw [e0, e1]
  rfl

/-- The printed index maps, decided over the grid: the row-block windows sit at block row `t`, the weights and the bias
    at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- What grid point `t` writes back is block `t` of the layer of the entry arrays. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, ht⟩ := idx0 t
  funext y
  show k0_pay1 (iblk0 V c 0 t) (iblk0 V c 1 t) (iblk0 V c 2 t) (iblk0 V c 4 t) (iblk0 V c 3 t) y
    = G0 V c (((cfg0.win 5).blk t).view.emb y)
  refine (block0 (agg0 V c) (feat0 V c) (wl0 V c) (wr0 V c) (bias0 V c)
    (iblk0 V c 0 t) (iblk0 V c 1 t) (iblk0 V c 2 t) (iblk0 V c 4 t) (iblk0 V c 3 t)
    (t.val * 4000) (by omega) ?_ ?_ ?_ ?_ ?_ y).trans ?_
  · intro z
    show V c main_v21 (((cfg0.win 0).blk t).view.emb z) = V c main_v21 (rowAt (t.val * 4000) _ z)
    refine congrArg (V c main_v21) (funext fun a => Fin.ext ?_)
    match a with
    | ⟨0, _⟩ => show win0_0.index t (0 : Fin 2) * 4000 + 1 * (z 0).val = t.val * 4000 + (z 0).val; rw [e00]; omega
    | ⟨1, _⟩ => show win0_0.index t (1 : Fin 2) * 128 + 1 * (z 1).val = (z 1).val; rw [e01]; omega
  · intro z
    show V c main_arg0 (((cfg0.win 1).blk t).view.emb z) = V c main_arg0 (rowAt (t.val * 4000) _ z)
    refine congrArg (V c main_arg0) (funext fun a => Fin.ext ?_)
    match a with
    | ⟨0, _⟩ => show win0_1.index t (0 : Fin 2) * 4000 + 1 * (z 0).val = t.val * 4000 + (z 0).val; rw [e10]; omega
    | ⟨1, _⟩ => show win0_1.index t (1 : Fin 2) * 128 + 1 * (z 1).val = (z 1).val; rw [e11]; omega
  · funext z
    show V c main_arg1 (((cfg0.win 2).blk t).view.emb z) = V c main_arg1 z
    refine congrArg (V c main_arg1) (funext fun a => Fin.ext ?_)
    match a with
    | ⟨0, _⟩ => show win0_2.index t (0 : Fin 2) * 128 + 1 * (z 0).val = (z 0).val; rw [e20]; omega
    | ⟨1, _⟩ => show win0_2.index t (1 : Fin 2) * 128 + 1 * (z 1).val = (z 1).val; rw [e21]; omega
  · funext z
    show V c main_arg3 (((cfg0.win 4).blk t).view.emb z) = V c main_arg3 z
    refine congrArg (V c main_arg3) (funext fun a => Fin.ext ?_)
    match a with
    | ⟨0, _⟩ => show win0_4.index t (0 : Fin 2) * 128 + 1 * (z 0).val = (z 0).val; rw [e40]; omega
    | ⟨1, _⟩ => show win0_4.index t (1 : Fin 2) * 128 + 1 * (z 1).val = (z 1).val; rw [e41]; omega
  · funext z
    show V c main_v22 (((cfg0.win 3).blk t).view.emb z) = V c main_v22 z
    refine congrArg (V c main_v22) (funext fun a => Fin.ext ?_)
    match a with
    | ⟨0, _⟩ => show win0_3.index t (0 : Fin 2) * 1 + 1 * (z 0).val = (z 0).val; rw [e30]; omega
    | ⟨1, _⟩ => show win0_3.index t (1 : Fin 2) * 128 + 1 * (z 1).val = (z 1).val; rw [e31]; omega
  · show G0 V c (rowAt (t.val * 4000) _ y) = G0 V c (((cfg0.win 5).blk t).view.emb y)
    refine congrArg (G0 V c) (funext fun a => Fin.ext ?_)
    match a with
    | ⟨0, _⟩ => show t.val * 4000 + (y 0).val = win0_5.index t (0 : Fin 2) * 4000 + 1 * (y 0).val; rw [e50]; omega
    | ⟨1, _⟩ => show (y 1).val = win0_5.index t (1 : Fin 2) * 128 + 1 * (y 1).val; rw [e51]; omega

/-- An index of the output array lies in point `t`'s block iff each coordinate lies in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v23).slice (win0_5.rect t)).set ↔ _
  rw [View.set_slice_whole, Rect.mem_set_unit]
  exact Iff.rfl

/-- Every row lies in the block of the point its number divided by the block height names. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 25 := N_0
  have ht : (i 0).val / 4000 < grid0.N := by omega
  obtain ⟨-, -, -, -, -, -, -, -, -, -, e50, e51, -⟩ := idx0 ⟨(i 0).val / 4000, ht⟩
  refine ⟨⟨(i 0).val / 4000, ht⟩, flush0_5 _, ?_⟩
  rw [mem_blk0]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e50]
    show (i 0).val / 4000 * 4000 ≤ (i 0).val ∧ (i 0).val < (i 0).val / 4000 * 4000 + 4000
    omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [e51]
    omega

/-- The output array after the call: the layer of the arrays the region was entered with. -/
theorem final0 (c : Dev nD) : (dat0 V c).arrAt 5 cfg0.N = G0 V c :=
  (dat0 V c).arrAt_eq_of_cover 5 (G0 V c) (fun t _ => flushed0_eq V c t) (cover0)

end Region0

end Cert.KernelIdeal.Hand

end
-- ==== Proof.Region1.lean ====
/- The fused-layer pallas_call 1, read as ONE function of the arrays it is entered with.

  The call tiles its 100000 rows in 25 blocks of 4000. At grid point `t` the body loads block `t` of the aggregated
  features and of the node features, the whole weight matrices and the one-row bias, and stores one block of output:
  entry `(p, q)` is the positive part of (agg_p · Wl)_q + b_q + (x_p · Wr)_q. Row `p` of block `t` is row
  `4000 t + p` of the arrays, so the stored block is block `t` of the row-wise layer of the whole arrays; the 25 blocks
  cover every row, so the output array ends holding that layer.
-/
import proofs.«159692_j78752520339773_1_alg».proof.Proof.Gen.KernelIdeal.Frame
import proofs.«159692_j78752520339773_1_alg».proof.Proof.Layer
import proofs.«159692_j78752520339773_1_alg».proof.Proof.RegionCommon
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## pallas_call 1: what its output array ends holding, from the arrays the region is entered with -/

section Region1

variable (V : (c : Dev nD) → (b : Ref sig .tc) → Buf (Elt Ideal) ((c : Thread nD τ).loc b))

/-- The arrays the call's windows stage, at their literal types. -/
abbrev agg1 (c : Dev nD) : S100000x128.Idx → EReal := V c main_v41
abbrev feat1 (c : Dev nD) : S100000x128.Idx → EReal := V c main_v23
abbrev wl1 (c : Dev nD) : S128x128.Idx → EReal := V c main_arg4
abbrev bias1 (c : Dev nD) : S1x128.Idx → EReal := V c main_v42
abbrev wr1 (c : Dev nD) : S128x128.Idx → EReal := V c main_arg6

/-- The layer of those arrays: what the output array ends holding. -/
def G1 (c : Dev nD) : S100000x128.Idx → EReal :=
  SageLayer.layer (R := 100000) (K := 128) (H := 128) (agg1 V c) (feat1 V c) (wl1 V c) (wr1 V c)
    (fun j => bias1 V c (ix2 (0 : Fin 1) j))

/-- The body's stored value at `(p, q)` of a block: row `p` of the two row blocks against the weights, the bias row, the
    positive part. (The casts in the body are between equal shapes.) -/
theorem pay1_apply (x0 x1 : Vec Ideal S4000x128 .f32) (x2 x4 : Vec Ideal S128x128 .f32) (x3 : Vec Ideal S1x128 .f32)
    (p : Fin 4000) (q : Fin 128) :
    k1_pay1 x0 x1 x2 x4 x3 (ix2 p q)
      = SageLayer.rowOut (K := 128) (H := 128) x2 x4 (fun j => x3 (ix2 (0 : Fin 1) j)) (fun k => x0 (ix2 p k)) (fun k => x1 (ix2 p k)) q := by
  unfold k1_pay1
  simp only [shapeCast_self]
  exact SageLayer.kernel_apply (R := 4000) (K := 128) (H := 128) _ rfl x0 x1 x2 x4 x3 _ _ p q

/-- A block of rows starting at row `r`, whole weights and bias: the stored value at `y` is the layer at row `r + y₀`. -/
theorem block1 (A Hf : S100000x128.Idx → EReal) (Wl Wr : S128x128.Idx → EReal) (B : S1x128.Idx → EReal)
    (x0 x1 : Vec Ideal S4000x128 .f32) (x2 x4 : Vec Ideal S128x128 .f32) (x3 : Vec Ideal S1x128 .f32)
    (r : ℕ) (hr : r + 4000 ≤ 100000)
    (h0 : ∀ z : S4000x128.Idx, x0 z = A (rowAt r hr z)) (h1 : ∀ z : S4000x128.Idx, x1 z = Hf (rowAt r hr z))
    (h2 : x2 = Wl) (h4 : x4 = Wr) (h3 : x3 = B) (y : S4000x128.Idx) :
    k1_pay1 x0 x1 x2 x4 x3 y
      = SageLayer.layer (R := 100000) (K := 128) (H := 128) A Hf Wl Wr (fun j => B (ix2 (0 : Fin 1) j)) (rowAt r hr y) := by
  subst h2 h4 h3
  obtain ⟨p, q, rfl⟩ : ∃ (p : Fin 4000) (q : Fin 128), y = ix2 p q := ⟨y 0, y 1, eq_ix2 y⟩
  rw [pay1_apply]
  have e0 : (fun k : Fin 128 => x0 (ix2 p k)) = fun k : Fin 128 => A (rowAt r hr (ix2 p k)) := funext fun k => h0 (ix2 p k)
  have e1 : (fun k : Fin 128 => x1 (ix2 p k)) = fun k : Fin 128 => Hf (rowAt r hr (ix2 p k)) := funext fun k => h1 (ix2 p k)
  rw [e0, e1]
  rfl

/-- The printed index maps, decided over the grid: the row-block windows sit at block row `t`, the weights and the bias
    at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- What grid point `t` writes back is block `t` of the layer of the entry arrays. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51, ht⟩ := idx1 t
  funext y
  show k1_pay1 (iblk1 V c 0 t) (iblk1 V c 1 t) (iblk1 V c 2 t) (iblk1 V c 4 t) (iblk1 V c 3 t) y
    = G1 V c (((cfg1.win 5).blk t).view.emb y)
  refine (block1 (agg1 V c) (feat1 V c) (wl1 V c) (wr1 V c) (bias1 V c)
    (iblk1 V c 0 t) (iblk1 V c 1 t) (iblk1 V c 2 t) (iblk1 V c 4 t) (iblk1 V c 3 t)
    (t.val * 4000) (by omega) ?_ ?_ ?_ ?_ ?_ y).trans ?_
  · intro z
    show V c main_v41 (((cfg1.win 0).blk t).view.emb z) = V c main_v41 (rowAt (t.val * 4000) _ z)
    refine congrArg (V c main_v41) (funext fun a => Fin.ext ?_)
    match a with
    | ⟨0, _⟩ => show win1_0.index t (0 : Fin 2) * 4000 + 1 * (z 0).val = t.val * 4000 + (z 0).val; rw [e00]; omega
    | ⟨1, _⟩ => show win1_0.index t (1 : Fin 2) * 128 + 1 * (z 1).val = (z 1).val; rw [e01]; omega
  · intro z
    show V c main_v23 (((cfg1.win 1).blk t).view.emb z) = V c main_v23 (rowAt (t.val * 4000) _ z)
    refine congrArg (V c main_v23) (funext fun a => Fin.ext ?_)
    match a with
    | ⟨0, _⟩ => show win1_1.index t (0 : Fin 2) * 4000 + 1 * (z 0).val = t.val * 4000 + (z 0).val; rw [e10]; omega
    | ⟨1, _⟩ => show win1_1.index t (1 : Fin 2) * 128 + 1 * (z 1).val = (z 1).val; rw [e11]; omega
  · funext z
    show V c main_arg4 (((cfg1.win 2).blk t).view.emb z) = V c main_arg4 z
    refine congrArg (V c main_arg4) (funext fun a => Fin.ext ?_)
    match a with
    | ⟨0, _⟩ => show win1_2.index t (0 : Fin 2) * 128 + 1 * (z 0).val = (z 0).val; rw [e20]; omega
    | ⟨1, _⟩ => show win1_2.index t (1 : Fin 2) * 128 + 1 * (z 1).val = (z 1).val; rw [e21]; omega
  · funext z
    show V c main_arg6 (((cfg1.win 4).blk t).view.emb z) = V c main_arg6 z
    refine congrArg (V c main_arg6) (funext fun a => Fin.ext ?_)
    match a with
    | ⟨0, _⟩ => show win1_4.index t (0 : Fin 2) * 128 + 1 * (z 0).val = (z 0).val; rw [e40]; omega
    | ⟨1, _⟩ => show win1_4.index t (1 : Fin 2) * 128 + 1 * (z 1).val = (z 1).val; rw [e41]; omega
  · funext z
    show V c main_v42 (((cfg1.win 3).blk t).view.emb z) = V c main_v42 z
    refine congrArg (V c main_v42) (funext fun a => Fin.ext ?_)
    match a with
    | ⟨0, _⟩ => show win1_3.index t (0 : Fin 2) * 1 + 1 * (z 0).val = (z 0).val; rw [e30]; omega
    | ⟨1, _⟩ => show win1_3.index t (1 : Fin 2) * 128 + 1 * (z 1).val = (z 1).val; rw [e31]; omega
  · show G1 V c (rowAt (t.val * 4000) _ y) = G1 V c (((cfg1.win 5).blk t).view.emb y)
    refine congrArg (G1 V c) (funext fun a => Fin.ext ?_)
    match a with
    | ⟨0, _⟩ => show t.val * 4000 + (y 0).val = win1_5.index t (0 : Fin 2) * 4000 + 1 * (y 0).val; rw [e50]; omega
    | ⟨1, _⟩ => show (y 1).val = win1_5.index t (1 : Fin 2) * 128 + 1 * (y 1).val; rw [e51]; omega

/-- An index of the output array lies in point `t`'s block iff each coordinate lies in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v43).slice (win1_5.rect t)).set ↔ _
  rw [View.set_slice_whole, Rect.mem_set_unit]
  exact Iff.rfl

/-- Every row lies in the block of the point its number divided by the block height names. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 25 := N_1
  have ht : (i 0).val / 4000 < grid1.N := by omega
  obtain ⟨-, -, -, -, -, -, -, -, -, -, e50, e51, -⟩ := idx1 ⟨(i 0).val / 4000, ht⟩
  refine ⟨⟨(i 0).val / 4000, ht⟩, flush1_5 _, ?_⟩
  rw [mem_blk1]
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e50]
    show (i 0).val / 4000 * 4000 ≤ (i 0).val ∧ (i 0).val < (i 0).val / 4000 * 4000 + 4000
    omega
  | ⟨1, _⟩ =>
    show win1_5.index ⟨(i 0).val / 4000, ht⟩ (1 : Fin 2) * 128 ≤ (i 1).val ∧ (i 1).val < win1_5.index ⟨(i 0).val / 4000, ht⟩ (1 : Fin 2) * 128 + 128
    rw [e51]
    omega

/-- The output array after the call: the layer of the arrays the region was entered with. -/
theorem final1 (c : Dev nD) : (dat1 V c).arrAt 5 cfg1.N = G1 V c :=
  (dat1 V c).arrAt_eq_of_cover 5 (G1 V c) (fun t _ => flushed1_eq V c t) (cover1)

end Region1

end Cert.KernelIdeal.Hand

end
-- ==== Proof.KernelValue.lean ====
/-
  What the kernel program computes, as one function of its arguments, and that its run ends there.

  `hidden` is the first layer: the row-wise layer of the mean aggregation of the input features and the input features
  themselves. `sageOut` is the second layer applied the same way to `hidden`. The first pallas_call is entered with the
  aggregation of the launch features (the host stretch before it) and leaves `hidden` in its result array; the
  second is entered with the aggregation of that array and leaves `sageOut` in the program's result array.
-/
import proofs.«159692_j78752520339773_1_alg».proof.Proof.HostAgg
import proofs.«159692_j78752520339773_1_alg».proof.Proof.Region0
import proofs.«159692_j78752520339773_1_alg».proof.Proof.Region1
import proofs.«159692_j78752520339773_1_alg».proof.Proof.KernelRun

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-- The first layer's output: the layer of the mean-aggregated input features and the input features. -/
def hidden (x : S100000x128.Idx → EReal) (Wl Wr : S128x128.Idx → EReal) (b : S128.Idx → EReal)
    (e : (⟨S2x1600000, .i32⟩ : BufTy).Contents (Elt Ideal)) : S100000x128.Idx → EReal :=
  SageLayer.layer (R := 100000) (K := 128) (H := 128) (meanAgg (F := Ideal) x e) x Wl Wr (fun j => b (ix1 j))

/-- The program's result: the second layer, applied to the first layer's output. -/
def sageOut (x : S100000x128.Idx → EReal) (Wl1 : S128x128.Idx → EReal) (b1 : S128.Idx → EReal) (Wr1 Wl2 : S128x128.Idx → EReal)
    (b2 : S128.Idx → EReal) (Wr2 : S128x128.Idx → EReal) (e : (⟨S2x1600000, .i32⟩ : BufTy).Contents (Elt Ideal)) :
    S100000x128.Idx → EReal :=
  hidden (hidden x Wl1 Wr1 b1 e) Wl2 Wr2 b2 e

variable (m : (ℓ : Loc nD τ sig) → Buf (Elt Ideal) ℓ) (ρ : Dev nD → PrngReg)

/-- The first call's result array holds the first layer's output. -/
theorem hidden_eq (c : Dev nD) :
    V2 m ρ c main_v23 = hidden (m ((c : Thread nD τ).loc main_arg0)) (m ((c : Thread nD τ).loc main_arg1)) (m ((c : Thread nD τ).loc main_arg3)) (m ((c : Thread nD τ).loc main_arg2)) (m ((c : Thread nD τ).loc main_arg7)) := by
  rw [V2_feat, final0]
  unfold G0 hidden
  have ea : agg0 (V1 m ρ) c = meanAgg (F := Ideal) (m ((c : Thread nD τ).loc main_arg0)) (m ((c : Thread nD τ).loc main_arg7)) := V1_agg m ρ c
  have eh : feat0 (V1 m ρ) c = (m ((c : Thread nD τ).loc main_arg0)) := V1_arg0 m ρ c
  have el : wl0 (V1 m ρ) c = (m ((c : Thread nD τ).loc main_arg1)) := V1_arg1 m ρ c
  have er : wr0 (V1 m ρ) c = (m ((c : Thread nD τ).loc main_arg3)) := V1_arg3 m ρ c
  have eb : (fun j : Fin 128 => bias0 (V1 m ρ) c (ix2 (0 : Fin 1) j)) = fun j : Fin 128 => (m ((c : Thread nD τ).loc main_arg2)) (ix1 j) :=
    funext fun j => by
      show V1 m ρ c main_v22 (ix2 (0 : Fin 1) j) = _
      rw [V1_bias]
      exact shapeCast_a_1a_apply _ _ (0 : Fin 1) j
  rw [ea, eh, el, er, eb]

/-- The program's result array holds the second layer's output. -/
theorem out_eq (c : Dev nD) :
    W4 m ρ c (Proc.devRef .tc main_v43)
      = sageOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [V4_out, final1]
  unfold G1 sageOut
  rw [← hidden_eq m ρ c]
  unfold hidden
  have ea : agg1 (V3 m ρ) c = meanAgg (F := Ideal) (V2 m ρ c main_v23) (m ((c : Thread nD τ).loc main_arg7)) := V3_agg m ρ c
  have eh : feat1 (V3 m ρ) c = V2 m ρ c main_v23 := V3_feat m ρ c
  have el : wl1 (V3 m ρ) c = (m ((c : Thread nD τ).loc main_arg4)) := V3_arg4 m ρ c
  have er : wr1 (V3 m ρ) c = (m ((c : Thread nD τ).loc main_arg6)) := V3_arg6 m ρ c
  have eb : (fun j : Fin 128 => bias1 (V3 m ρ) c (ix2 (0 : Fin 1) j)) = fun j : Fin 128 => (m ((c : Thread nD τ).loc main_arg5)) (ix1 j) :=
    funext fun j => by
      show V3 m ρ c main_v42 (ix2 (0 : Fin 1) j) = _
      rw [V3_bias]
      exact shapeCast_a_1a_apply _ _ (0 : Fin 1) j
  rw [ea, eh, el, er, eb]

/-- The kernel program's run: every weakly fair execution ends with the result array at `sageOut` of the arguments
    and the arguments as launched. -/
theorem run : θ_run defs (onTc (τ := τ) (main (F := Ideal))) ⟨m, fun _ => 0, ρ⟩ (fun r => ∀ c : Dev nD,
      r.2.mem ((c.tc : Thread nD τ).loc main_v43)
        = sageOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (run_named m ρ)

end Cert.KernelIdeal.Hand

end
-- ==== Proof.RefValue.lean ====
/-
  What the reference computes, in the kernel program's vocabulary.

  The reference's two mean aggregations are the operations the kernel program's host stretches apply, spelt the same:
  the first is `meanAgg` of the input features, the second `meanAgg` of the first layer's output. Each dense
  part — two `dot_general`s, a bias broadcast in two steps, a maximum with a broadcast zero — is the row-wise layer,
  entry by entry. So the reference's result is `sageOut` of the arguments.
-/
import proofs.«159692_j78752520339773_1_alg».proof.Proof.Gen.ReferenceIdeal.Read
import proofs.«159692_j78752520339773_1_alg».proof.Proof.KernelValue

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem
open Idealize.ShloMosaic.ValueIdx
open Cert.KernelIdeal.Hand (meanAgg hidden sageOut)

/-- The reference's first aggregation is the kernel program's, of the same arguments. -/
theorem agg1_eq (x0 : (⟨S100000x128, .f32⟩ : BufTy).Contents (Elt Ideal)) (x7 : (⟨S2x1600000, .i32⟩ : BufTy).Contents (Elt Ideal)) :
    val_main_v21 (F := Ideal) x0 x7 = meanAgg (F := Ideal) x0 x7 := rfl

/-- The reference's second aggregation is the kernel program's, of the first layer's output. -/
theorem agg2_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x7 : (⟨S2x1600000, .i32⟩ : BufTy).Contents (Elt Ideal)) :
    val_main_v46 (F := Ideal) x0 x1 x2 x3 x7 = meanAgg (F := Ideal) (val_main_v28 (F := Ideal) x0 x1 x2 x3 x7) x7 := rfl

/-- The reference's first dense part, entry by entry, is the row-wise layer. -/
theorem layer1_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x7 : (⟨S2x1600000, .i32⟩ : BufTy).Contents (Elt Ideal)) :
    val_main_v28 (F := Ideal) x0 x1 x2 x3 x7
      = SageLayer.layer (R := 100000) (K := 128) (H := 128) (val_main_v21 (F := Ideal) x0 x7) x0 x1 x3 (fun j => x2 (ix1 j)) := by
  funext i
  obtain ⟨n, j, rfl⟩ : ∃ (n : Fin 100000) (j : Fin 128), i = ix2 n j := ⟨i 0, i 1, eq_ix2 i⟩
  unfold val_main_v28 val_main_v27 val_main_v26 val_main_v25 val_main_v24 val_main_v23 val_main_v22 val_main_call0_v0 val_main_call0_cst
  exact SageLayer.host_apply (R := 100000) (K := 128) (H := 128) _ rfl (val_main_v21 (F := Ideal) x0 x7) x0 x1 x3 x2 _ _ _ _ n j

/-- The reference's second dense part, entry by entry, is the row-wise layer. -/
theorem layer2_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x1600000, .i32⟩ : BufTy).Contents (Elt Ideal)) :
    val_main_v53 (F := Ideal) x0 x1 x2 x3 x4 x5 x6 x7
      = SageLayer.layer (R := 100000) (K := 128) (H := 128) (val_main_v46 (F := Ideal) x0 x1 x2 x3 x7) (val_main_v28 (F := Ideal) x0 x1 x2 x3 x7) x4 x6 (fun j => x5 (ix1 j)) := by
  funext i
  obtain ⟨n, j, rfl⟩ : ∃ (n : Fin 100000) (j : Fin 128), i = ix2 n j := ⟨i 0, i 1, eq_ix2 i⟩
  unfold val_main_v53 val_main_v52 val_main_v51 val_main_v50 val_main_v49 val_main_v48 val_main_v47 val_main_call1_v0 val_main_call1_cst
  exact SageLayer.host_apply (R := 100000) (K := 128) (H := 128) _ rfl (val_main_v46 (F := Ideal) x0 x1 x2 x3 x7) (val_main_v28 (F := Ideal) x0 x1 x2 x3 x7) x4 x6 x5 _ _ _ _ n j

/-- The reference's first layer is `hidden`. -/
theorem hidden_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x7 : (⟨S2x1600000, .i32⟩ : BufTy).Contents (Elt Ideal)) :
    val_main_v28 (F := Ideal) x0 x1 x2 x3 x7 = hidden x0 x1 x3 x2 x7 := by
  rw [layer1_eq, agg1_eq]
  rfl

/-- The reference's result is `sageOut` of the arguments. -/
theorem out_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S2x1600000, .i32⟩ : BufTy).Contents (Elt Ideal)) :
    val_main_v53 (F := Ideal) x0 x1 x2 x3 x4 x5 x6 x7 = sageOut x0 x1 x2 x3 x4 x5 x6 x7 := by
  rw [layer2_eq, agg2_eq, hidden_eq]
  rfl

end Cert.ReferenceIdeal.Hand

end
-- ==== Proof.lean ====
/-
  Two mean-aggregation graph layers with the dense part of each fused in a Pallas kernel, against the same network on the host.

  Both programs compute, for each of the two layers,  relu(meanAgg(h) · Wl + b + h · Wr)  row by row, where `meanAgg`
  gathers the rows of `h` at the edges' sources, sums them at the edges' destinations and divides by the in-degree
  (at least one). The gather, the scatter-add and the division are host operations in BOTH programs, spelt the same, so
  they are carried as one function of `h` and the edge list and never opened. What differs is the dense part: the kernel
  multiplies row blocks of narrowed operands into zero accumulators and adds a bias row broadcast down the rows; the
  host applies two `dot_general`s and a bias broadcast in two steps. At the ideal values a narrowing is the identity and
  each product is the same finite sum over the contracted coordinate, so the two agree entry by entry with no appeal to
  finiteness: the same sums, the same additions in the same order, the same maximum with zero.

  The kernel's value: each pallas_call's output array is the row-wise layer of the arrays it is entered with (its 25 row
  blocks cover the array), the entry arrays are read back through the host stretches, and the program's run is the
  generated frame's launch with the result array named. The reference's value: its generated run, read one operation at
  a time. Both end at `sageOut` of the arguments.
-/
import proofs.«159692_j78752520339773_1_alg».proof.Defs
import proofs.«159692_j78752520339773_1_alg».proof.Proof.Gen.Kernel
import proofs.«159692_j78752520339773_1_alg».proof.Proof.Gen.Kernel.Skeleton
import proofs.«159692_j78752520339773_1_alg».proof.Proof.Gen.Kernel.Launch
import proofs.«159692_j78752520339773_1_alg».proof.Proof.Gen.Kernel.Points
import proofs.«159692_j78752520339773_1_alg».proof.Proof.Gen.Kernel.Frame
import proofs.«159692_j78752520339773_1_alg».proof.Proof.Gen.KernelIdeal
import proofs.«159692_j78752520339773_1_alg».proof.Proof.Gen.KernelIdeal.Skeleton
import proofs.«159692_j78752520339773_1_alg».proof.Proof.Gen.KernelIdeal.Launch
import proofs.«159692_j78752520339773_1_alg».proof.Proof.Gen.KernelIdeal.Points
import proofs.«159692_j78752520339773_1_alg».proof.Proof.Gen.KernelIdeal.Frame
import proofs.«159692_j78752520339773_1_alg».proof.Proof.Gen.ReferenceIdeal
import proofs.«159692_j78752520339773_1_alg».proof.Proof.Gen.Pre_finite_inputs
import proofs.«159692_j78752520339773_1_alg».proof.Proof.Gen.ReferenceIdeal.Run
import proofs.«159692_j78752520339773_1_alg».proof.Proof.Gen.ReferenceIdeal.Read
import proofs.«159692_j78752520339773_1_alg».proof.Proof.KernelValue
import proofs.«159692_j78752520339773_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result arrays at `sageOut` of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v53_eq, Cert.ReferenceIdeal.Hand.out_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
